-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64x32 .f32) (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S1200000 32) (main_arg2 : IVec S1200000 32) (main_arg3 : FVec F S64x64 .f32) (main_arg4 : FVec F S64x64 .f32) (main_arg5 : FVec F S64 .f32) (main_arg6 : FVec F S64x32 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | .hbm, ⟨22, _⟩ => ⟨S_, .f32⟩
  | .hbm, ⟨23, _⟩ => ⟨S1200000, .f32⟩
  | .hbm, ⟨24, _⟩ => ⟨S_, .f32⟩
  | .hbm, ⟨25, _⟩ => ⟨S100000, .f32⟩
  | .hbm, ⟨26, _⟩ => ⟨S1200000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S_, .f32⟩
  | .hbm, ⟨50, _⟩ => ⟨S1200000, .f32⟩
  | .hbm, ⟨51, _⟩ => ⟨S_, .f32⟩
  | .hbm, ⟨52, _⟩ => ⟨S100000, .f32⟩
  | .hbm, ⟨53, _⟩ => ⟨S1200000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x32, .f32⟩
  | .hbm, ⟨62, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | .hbm, ⟨22, _⟩ => ⟨S_, .f32⟩
  | .hbm, ⟨23, _⟩ => ⟨S1200000, .f32⟩
  | .hbm, ⟨24, _⟩ => ⟨S_, .f32⟩
  | .hbm, ⟨25, _⟩ => ⟨S100000, .f32⟩
  | .hbm, ⟨26, _⟩ => ⟨S1200000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S_, .f32⟩
  | .hbm, ⟨54, _⟩ => ⟨S1200000, .f32⟩
  | .hbm, ⟨55, _⟩ => ⟨S_, .f32⟩
  | .hbm, ⟨56, _⟩ => ⟨S100000, .f32⟩
  | .hbm, ⟨57, _⟩ => ⟨S1200000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.SageSpec.lean ====
/-
  One GraphSAGE layer's dense step as a plain function of arrays: entry (r, q) of the result is the node's own feature
  row times column q of the self weights, plus its neighbour-mean row times column q of the neighbour weights, plus
  bias q. Both programs compute this row by row, so a block of consecutive rows of the result is the same function of the
  matching rows of the two feature arrays.
-/
import Idealize.ShloMosaic.Lib.ValueIdx
import Idealize.ShloMosaic.PureOps.Ideal

noncomputable section

namespace Sage

open Idealize.ShloMosaic Idealize.ShloMosaic.ValueIdx

/-- Entry (r, q) of `h · ws + hn · wn + b`: two inner products over the 64 input features and the bias. -/
def combineAt {n dout : Nat} (h hn : (⟨2, ![n, 64]⟩ : Shape).Idx → EReal) (ws wn : (⟨2, ![64, dout]⟩ : Shape).Idx → EReal)
    (b : Fin dout → EReal) (r : Fin n) (q : Fin dout) : EReal :=
  (∑ k : Fin 64, h (ix2 r k) * ws (ix2 k q) + ∑ k : Fin 64, hn (ix2 r k) * wn (ix2 k q)) + b q

/-- The whole [n, dout] result. -/
def combine {n dout : Nat} (h hn : (⟨2, ![n, 64]⟩ : Shape).Idx → EReal) (ws wn : (⟨2, ![64, dout]⟩ : Shape).Idx → EReal)
    (b : Fin dout → EReal) : (⟨2, ![n, dout]⟩ : Shape).Idx → EReal :=
  fun i => combineAt h hn ws wn b (i 0) (i 1)

theorem combine_ix2 {n dout : Nat} (h hn : (⟨2, ![n, 64]⟩ : Shape).Idx → EReal) (ws wn : (⟨2, ![64, dout]⟩ : Shape).Idx → EReal)
    (b : Fin dout → EReal) (r : Fin n) (q : Fin dout) : combine h hn ws wn b (ix2 r q) = combineAt h hn ws wn b r q := rfl

/-- Rows `off … off + nb - 1` of the result depend only on the same rows of the two feature arrays: if a block's
    feature rows are those rows, the block of the result is the block's own `combine`. -/
theorem combineAt_rows {n nb dout : Nat} (h hn : (⟨2, ![n, 64]⟩ : Shape).Idx → EReal) (hb hnb : (⟨2, ![nb, 64]⟩ : Shape).Idx → EReal)
    (ws wn : (⟨2, ![64, dout]⟩ : Shape).Idx → EReal) (b : Fin dout → EReal) (r : Fin n) (p : Fin nb)
    (eh : ∀ k : Fin 64, hb (ix2 p k) = h (ix2 r k)) (ehn : ∀ k : Fin 64, hnb (ix2 p k) = hn (ix2 r k)) (q : Fin dout) :
    combineAt hb hnb ws wn b p q = combineAt h hn ws wn b r q := by
  unfold combineAt
  simp only [eh, ehn]

/-- The two-layer network: layer 1 on the input features, layer 2 on layer 1's output, each with the neighbour mean
    `agg` of its own input (the edge lists are fixed, so the aggregation is one function of a feature array). -/
def net (agg : ((⟨2, ![100000, 64]⟩ : Shape).Idx → EReal) → (⟨2, ![100000, 64]⟩ : Shape).Idx → EReal)
    (x : (⟨2, ![100000, 64]⟩ : Shape).Idx → EReal)
    (ws1 wn1 : (⟨2, ![64, 64]⟩ : Shape).Idx → EReal) (b1 : Fin 64 → EReal)
    (ws2 wn2 : (⟨2, ![64, 32]⟩ : Shape).Idx → EReal) (b2 : Fin 32 → EReal) : (⟨2, ![100000, 32]⟩ : Shape).Idx → EReal :=
  combine (combine x (agg x) ws1 wn1 b1) (agg (combine x (agg x) ws1 wn1 b1)) ws2 wn2 b2

end Sage

end
-- ==== Proof.KPayload.lean ====
/-
  What one grid step of each of the two kernels stores, at the exact reals: with the changes of float format the
  identity and the matrix unit's product into a zero accumulator a plain sum, the stored block is the layer's dense step
  (`Sage.combine`) of the step's two feature blocks, the two weight matrices and the one bias row.
-/
import proofs.«164398_j61529701482749_1_alg».proof.Proof.Gen.KernelIdeal.Skeleton
import proofs.«164398_j61529701482749_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-! ### The matrix unit's record `dot_S10000x64_S64x64_S10000x64_1_0_0_1_n_n`: which operand coordinates an output index and a contraction index select -/

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product on the matrix unit into a zero accumulator, at the exact reals: entry (p, q) is the inner
    product of row p of the left block with column q of the right one over the 64 features. -/
theorem matmul64_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The matrix unit's record `dot_S10000x64_S64x32_S10000x32_1_0_0_1_n_n`: which operand coordinates an output index and a contraction index select -/

theorem lhs32_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs32_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs32_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs32_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- A block's product on the matrix unit into a zero accumulator, at the exact reals: entry (p, q) is the inner
    product of row p of the left block with column q of the right one over the 64 features. -/
theorem matmul32_apply (l : FVec Ideal S10000x64 .bf16) (r : FVec Ideal S64x32 .bf16) (p : Fin 10000) (q : Fin 32) :
    matmul dot_S10000x64_S64x32_S10000x32_1_0_0_1_n_n none l r (constant S10000x32 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs32_0 _ _
    | ⟨1, _⟩ => exact (lhs32_1 _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs32_0 _ _).trans hk
    | ⟨1, _⟩ => exact rhs32_1 _ _)
  rw [el, er]

/-! ### The stored blocks -/

/-- Layer 1's step stores `h · W_self + hn · W_neigh + b` of its blocks (64 output features). -/
theorem pay64_apply (x0 x1 : Vec Ideal S10000x64 .f32) (x2 x3 : Vec Ideal S64x64 .f32) (x4 : Vec Ideal S1x64 .f32)
    (p : Fin 10000) (q : Fin 64) :
    k0_pay1 (F := Ideal) x0 x1 x2 x3 x4 (ix2 p q) = Sage.combineAt x0 x1 x2 x3 (fun c => x4 (ix2 (0 : Fin 1) c)) p q := by
  unfold k0_pay1 Sage.combineAt
  simp only [shapeCast_self]
  rw [addf_apply, addf_apply, matmul64_apply, matmul64_apply, broadcastTo_1b_ab_apply]
  rfl

/-- Layer 2's step stores the same expression of its blocks (32 output features). -/
theorem pay32_apply (x0 x1 : Vec Ideal S10000x64 .f32) (x2 x3 : Vec Ideal S64x32 .f32) (x4 : Vec Ideal S1x32 .f32)
    (p : Fin 10000) (q : Fin 32) :
    k1_pay1 (F := Ideal) x0 x1 x2 x3 x4 (ix2 p q) = Sage.combineAt x0 x1 x2 x3 (fun c => x4 (ix2 (0 : Fin 1) c)) p q := by
  unfold k1_pay1 Sage.combineAt
  simp only [shapeCast_self]
  rw [addf_apply, addf_apply, matmul32_apply, matmul32_apply, broadcastTo_1b_ab_apply]
  rfl

end Cert.KernelIdeal.Payload

end
-- ==== Proof.KBlocks.lean ====
/-
  What each of the two kernel launches leaves in its output array, as one function of the arrays the launch finds:
  grid step t stores rows 10000·t … 10000·t + 9999 of the layer's dense step (`Sage.combine`) of the whole feature
  arrays, because the step's feature blocks are exactly those rows, its weight and bias windows are the whole arrays, and
  the dense step is computed row by row. The ten steps' row blocks tile the 100000 rows.
-/
import proofs.«164398_j61529701482749_1_alg».proof.Proof.Gen.KernelIdeal.Frame
import proofs.«164398_j61529701482749_1_alg».proof.Proof.KPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

theorem zero_off : (![0, 0] : Fin 2 → Nat) = fun _ => 0 := funext fun a => by fin_cases a <;> rfl

/-- Rows `tv·10000 + p` of a [100000, d] array, as an index. -/
abbrev rowOf (tv : Nat) (htv : tv < 10) (p : Fin 10000) : Fin 100000 := ⟨tv * 10000 + p.val, by have := p.isLt; omega⟩

/-- One step's stored block against the whole-array dense step, over plain arrays: if the step's two feature blocks are
    rows `tv·10000 …` of `H` and `HN`, and its weight and bias blocks are the arrays `WS`, `WN`, `B`, then entry `j` of the
    stored block is entry `i` of `Sage.combine H HN WS WN B` whenever `i` is `j` moved down by `tv` blocks. -/
theorem step64 (x0 x1 : Vec Ideal S10000x64 .f32) (x2 x3 : Vec Ideal S64x64 .f32) (x4 : Vec Ideal S1x64 .f32)
    (H HN : Vec Ideal S100000x64 .f32) (WS WN : Vec Ideal S64x64 .f32) (B : Vec Ideal S1x64 .f32) (tv : Nat) (htv : tv < 10)
    (e0 : ∀ (p : Fin 10000) (k : Fin 64), x0 (ix2 p k) = H (ix2 (rowOf tv htv p) k))
    (e1 : ∀ (p : Fin 10000) (k : Fin 64), x1 (ix2 p k) = HN (ix2 (rowOf tv htv p) k))
    (e2 : x2 = WS) (e3 : x3 = WN) (e4 : x4 = B)
    (j : S10000x64.Idx) (i : S100000x64.Idx) (hi0 : (i 0).val = tv * 10000 + (j 0).val) (hi1 : (i 1).val = (j 1).val) :
    k0_pay1 (F := Ideal) x0 x1 x2 x3 x4 j = Sage.combine H HN WS WN (fun q => B (ix2 (0 : Fin 1) q)) i := by
  subst e2 e3 e4
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r = rowOf tv htv p := Fin.ext hi0
  have hq : q' = q := Fin.ext hi1
  subst hr hq
  rw [Payload.pay64_apply, Sage.combine_ix2]
  exact Sage.combineAt_rows H HN x0 x1 x2 x3 _ (rowOf tv htv p) p (e0 p) (e1 p) q'

/-- The same for layer 2's launch (32 output features). -/
theorem step32 (x0 x1 : Vec Ideal S10000x64 .f32) (x2 x3 : Vec Ideal S64x32 .f32) (x4 : Vec Ideal S1x32 .f32)
    (H HN : Vec Ideal S100000x64 .f32) (WS WN : Vec Ideal S64x32 .f32) (B : Vec Ideal S1x32 .f32) (tv : Nat) (htv : tv < 10)
    (e0 : ∀ (p : Fin 10000) (k : Fin 64), x0 (ix2 p k) = H (ix2 (rowOf tv htv p) k))
    (e1 : ∀ (p : Fin 10000) (k : Fin 64), x1 (ix2 p k) = HN (ix2 (rowOf tv htv p) k))
    (e2 : x2 = WS) (e3 : x3 = WN) (e4 : x4 = B)
    (j : S10000x32.Idx) (i : S100000x32.Idx) (hi0 : (i 0).val = tv * 10000 + (j 0).val) (hi1 : (i 1).val = (j 1).val) :
    k1_pay1 (F := Ideal) x0 x1 x2 x3 x4 j = Sage.combine H HN WS WN (fun q => B (ix2 (0 : Fin 1) q)) i := by
  subst e2 e3 e4
  obtain ⟨p, q, rfl⟩ : ∃ (p : Fin 10000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hr : r = rowOf tv htv p := Fin.ext hi0
  have hq : q' = q := Fin.ext hi1
  subst hr hq
  rw [Payload.pay32_apply, Sage.combine_ix2]
  exact Sage.combineAt_rows H HN x0 x1 x2 x3 _ (rowOf tv htv p) p (e0 p) (e1 p) q'

/-! ## The launches, at whatever contents `V` they find their arrays -/

variable (V : (c : Dev nD) → (b : Ref sig .tc) → Buf (Elt Ideal) ((c : Thread nD τ).loc b))

/-! ### Layer 1's launch -/

/-- Its index maps over the ten steps: the two feature windows and the output move one row block per step; the weight
    and bias windows stay on their one block. -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the launch leaves in `main_v20`: the dense step of the features, their neighbour mean, the layer's weights and
    its bias row, as the launch finds them. -/
def out0 (c : Dev nD) : Vec Ideal S100000x64 .f32 :=
  Sage.combine (V c main_arg0) (V c main_v18) (V c main_arg3) (V c main_arg4) (fun q => V c main_v19 (ix2 (0 : Fin 1) q))

/-- Step `t` writes back rows `10000·t …` of it. -/
theorem flushed0 (c : Dev nD) (t : Fin cfg0.N) :
    (dat0 V c).flushed 5 t = ((cfg0.win 5).blk t).view.read (Elt Ideal) (out0 V c) := by
  show (cfg0.win 5).cut (grid0.coords t) ((dat0 V c).after 5 t) = _
  rw [after0_5]
  unfold out0_5
  rw [View.canon_unit_zero zero_off]
  simp only [View.ld_unit_zero (S := S10000x64) zero_off, View.ld_unit_zero (S := S64x64) zero_off,
    View.ld_unit_zero (S := S1x64) zero_off]
  obtain ⟨a0, a1, b0, b1, c0, c1, d0, d1, e0, e1, f0, f1⟩ := maps0 t
  have ht : t.val < 10 := by have h : t.val < grid0.N := t.isLt; have := N_0; omega
  funext j
  show k0_pay1 (F := Ideal) (iblk0 V c 0 t) (iblk0 V c 1 t) (iblk0 V c 2 t) (iblk0 V c 3 t) (iblk0 V c 4 t) j
    = out0 V c (((cfg0.win 5).blk t).view.emb j)
  refine step64 (iblk0 V c 0 t) (iblk0 V c 1 t) (iblk0 V c 2 t) (iblk0 V c 3 t) (iblk0 V c 4 t)
    (V c main_arg0) (V c main_v18) (V c main_arg3) (V c main_arg4) (V c main_v19) t.val ht ?_ ?_ ?_ ?_ ?_
    j (((cfg0.win 5).blk t).view.emb j) ?_ ?_
  · intro p k
    show V c main_arg0 (((cfg0.win 0).blk t).view.emb (ix2 p k)) = V c main_arg0 (ix2 (rowOf t.val ht p) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · intro p k
    show V c main_v18 (((cfg0.win 1).blk t).view.emb (ix2 p k)) = V c main_v18 (ix2 (rowOf t.val ht p) k)
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 64 + 1 * k.val = k.val; omega
  · funext y
    show V c main_arg3 (((cfg0.win 2).blk t).view.emb y) = V c main_arg3 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_v19 (((cfg0.win 4).blk t).view.emb y) = V c main_v19 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · show win0_5.index t (0 : Fin 2) * 10000 + 1 * (j 0).val = t.val * 10000 + (j 0).val; omega
  · show win0_5.index t (1 : Fin 2) * 64 + 1 * (j 1).val = (j 1).val; omega

/-- An index of `main_v20` is in step `t`'s block iff each coordinate is in the block's range. -/
theorem mem_rows0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v20).slice (win0_5.rect t)).set ↔ _
  rw [View.set_slice_whole, Rect.mem_set_unit]
  exact Iff.rfl

/-- Every row is some step's: row `r` is in step `r / 10000`'s block. -/
theorem rows_cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by have := N_0; show (i 0).val / 10000 < grid0.N; omega⟩, rfl⟩
  obtain ⟨a0, a1, b0, b1, c0, c1, d0, d1, e0, e1, f0, f1⟩ := maps0 t
  refine ⟨t, flush0_5 t, ?_⟩
  rw [mem_rows0]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- THE ARRAY `main_v20` after layer 1's launch. -/
theorem region0_out (c : Dev nD) : (dat0 V c).arrAt 5 cfg0.N = out0 V c :=
  (dat0 V c).arrAt_eq_of_cover 5 (out0 V c) (fun t _ => flushed0 V c t) rows_cover0

/-! ### Layer 2's launch -/

/-- Its index maps over the ten steps, as for layer 1's. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the launch leaves in `main_v41`: the dense step of layer 1's output, its neighbour mean, layer 2's weights and
    its bias row, as the launch finds them. -/
def out1 (c : Dev nD) : Vec Ideal S100000x32 .f32 :=
  Sage.combine (V c main_v20) (V c main_v39) (V c main_arg6) (V c main_arg7) (fun q => V c main_v40 (ix2 (0 : Fin 1) q))

/-- Step `t` writes back rows `10000·t …` of it. -/
theorem flushed1 (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero zero_off]
  simp only [View.ld_unit_zero (S := S10000x64) zero_off, View.ld_unit_zero (S := S64x32) zero_off,
    View.ld_unit_zero (S := S1x32) zero_off]
  obtain ⟨a0, a1, b0, b1, c0, c1, d0, d1, e0, e1, f0, f1⟩ := maps1 t
  have ht : t.val < 10 := by have h : t.val < grid1.N := t.isLt; have := N_1; omega
  funext j
  show k1_pay1 (F := Ideal) (iblk1 V c 0 t) (iblk1 V c 1 t) (iblk1 V c 2 t) (iblk1 V c 3 t) (iblk1 V c 4 t) j
    = out1 V c (((cfg1.win 5).blk t).view.emb j)
  refine step32 (iblk1 V c 0 t) (iblk1 V c 1 t) (iblk1 V c 2 t) (iblk1 V c 3 t) (iblk1 V c 4 t)
    (V c main_v20) (V c main_v39) (V c main_arg6) (V c main_arg7) (V c main_v40) t.val ht ?_ ?_ ?_ ?_ ?_
    j (((cfg1.win 5).blk t).view.emb j) ?_ ?_
  · intro p k
    show V c main_v20 (((cfg1.win 0).blk t).view.emb (ix2 p k)) = V c main_v20 (ix2 (rowOf t.val ht p) k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · intro p k
    show V c main_v39 (((cfg1.win 1).blk t).view.emb (ix2 p k)) = V c main_v39 (ix2 (rowOf t.val ht p) k)
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  · funext y
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 32 + 1 * (y 1).val = (y 1).val; omega
  · funext y
    show V c main_arg7 (((cfg1.win 3).blk t).view.emb y) = V c main_arg7 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 32 + 1 * (y 1).val = (y 1).val; omega
  · funext y
    show V c main_v40 (((cfg1.win 4).blk t).view.emb y) = V c main_v40 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega
  · show win1_5.index t (0 : Fin 2) * 10000 + 1 * (j 0).val = t.val * 10000 + (j 0).val; omega
  · show win1_5.index t (1 : Fin 2) * 32 + 1 * (j 1).val = (j 1).val; omega

/-- An index of `main_v41` is in step `t`'s block iff each coordinate is in the block's range. -/
theorem mem_rows1 (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v41).slice (win1_5.rect t)).set ↔ _
  rw [View.set_slice_whole, Rect.mem_set_unit]
  exact Iff.rfl

/-- Every row is some step's. -/
theorem rows_cover1 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, by have := N_1; show (i 0).val / 10000 < grid1.N; omega⟩, rfl⟩
  obtain ⟨a0, a1, b0, b1, c0, c1, d0, d1, e0, e1, f0, f1⟩ := maps1 t
  refine ⟨t, flush1_5 t, ?_⟩
  rw [mem_rows1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 32 ≤ (i 1).val ∧ (i 1).val < win1_5.index t (1 : Fin 2) * 32 + 32
    omega

/-- THE ARRAY `main_v41` after layer 2's launch. -/
theorem region1_out (c : Dev nD) : (dat1 V c).arrAt 5 cfg1.N = out1 V c :=
  (dat1 V c).arrAt_eq_of_cover 5 (out1 V c) (fun t _ => flushed1 V c t) rows_cover1

end Cert.KernelIdeal.Blocks

end
-- ==== Proof.RefSide.lean ====
/-
  The reference program's result, read layer by layer: each layer's output is the dense step `Sage.combine` of the
  layer's input, that input's neighbour mean, the two weight matrices and the bias; the second layer's neighbour mean is
  the same aggregation as the first's, applied to layer 1's output. So the whole result is `Sage.net`.
-/
import proofs.«164398_j61529701482749_1_alg».proof.Proof.Gen.ReferenceIdeal.Run
import proofs.«164398_j61529701482749_1_alg».proof.Proof.Gen.ReferenceIdeal.Read
import proofs.«164398_j61529701482749_1_alg».proof.Proof.SageSpec

noncomputable section

namespace Cert.ReferenceIdeal.RefSide

open Cert.ReferenceIdeal Cert.ReferenceIdeal.Read Idealize.ShloMosaic Idealize.ShloMosaic.TcCoe Idealize.ShloMosaic.ValueIdx

/-- The neighbour mean of a feature array over the edges (src, dst): the reference's first aggregation, as a function of
    the array it gathers from. -/
abbrev agg (x1 x2 : (⟨S1200000, .i32⟩ : BufTy).Contents (Elt Ideal)) (h : (⟨S100000x64, .f32⟩ : BufTy).Contents (Elt Ideal)) :
    (⟨S100000x64, .f32⟩ : BufTy).Contents (Elt Ideal) :=
  val_main_v18 (F := Ideal) h x1 x2

/-- Layer 1's output is the dense step of the features and their neighbour mean. -/
theorem layer1_eq (x0 : (⟨S100000x64, .f32⟩ : BufTy).Contents (Elt Ideal)) (x1 x2 : (⟨S1200000, .i32⟩ : BufTy).Contents (Elt Ideal))
    (x3 x4 : (⟨S64x64, .f32⟩ : BufTy).Contents (Elt Ideal)) (x5 : (⟨S64, .f32⟩ : BufTy).Contents (Elt Ideal)) :
    val_main_v24 (F := Ideal) x0 x1 x2 x3 x4 x5 = Sage.combine x0 (agg x1 x2 x0) x3 x4 (fun q => x5 (ix1 q)) := by
  funext i
  obtain ⟨r, q, rfl⟩ : ∃ (r : Fin 100000) (q : Fin 64), i = ix2 r q := ⟨i 0, i 1, eq_ix2 i⟩
  rw [Sage.combine_ix2, val_main_v24_apply, val_main_v21_apply, val_main_v19_apply, val_main_v20_apply, val_main_v23_apply,
    val_main_v22_apply]
  have e1 : ∀ k : Fin 64, lidx_main_v19 (ix2 r q) k = ix2 r k := fun k => funext fun a => Fin.ext (by
    match a with | ⟨0, _⟩ => rfl | ⟨1, _⟩ => rfl)
  have e2 : ∀ k : Fin 64, ridx_main_v19 (ix2 r q) k = ix2 k q := fun k => funext fun a => Fin.ext (by
    match a with | ⟨0, _⟩ => rfl | ⟨1, _⟩ => rfl)
  have e3 : ∀ k : Fin 64, lidx_main_v20 (ix2 r q) k = ix2 r k := fun k => funext fun a => Fin.ext (by
    match a with | ⟨0, _⟩ => rfl | ⟨1, _⟩ => rfl)
  have e4 : ∀ k : Fin 64, ridx_main_v20 (ix2 r q) k = ix2 k q := fun k => funext fun a => Fin.ext (by
    match a with | ⟨0, _⟩ => rfl | ⟨1, _⟩ => rfl)
  have e5 : idx_main_v22 (idx_main_v23 (ix2 r q)) = ix1 q := funext fun a => Fin.ext (by
    match a with | ⟨0, _⟩ => rfl)
  simp only [e1, e2, e3, e4, e5]
  rfl

/-- The second aggregation is the first one applied to layer 1's output: the same gather, the same two scatter-adds,
    the same clamp of the degree and the same division. -/
theorem agg2_eq (x0 : (⟨S100000x64, .f32⟩ : BufTy).Contents (Elt Ideal)) (x1 x2 : (⟨S1200000, .i32⟩ : BufTy).Contents (Elt Ideal))
    (x3 x4 : (⟨S64x64, .f32⟩ : BufTy).Contents (Elt Ideal)) (x5 : (⟨S64, .f32⟩ : BufTy).Contents (Elt Ideal)) :
    val_main_v43 (F := Ideal) x0 x1 x2 x3 x4 x5 = agg x1 x2 (val_main_v24 (F := Ideal) x0 x1 x2 x3 x4 x5) := rfl

/-- Layer 2's output is the dense step of layer 1's output and its neighbour mean. -/
theorem layer2_eq (x0 : (⟨S100000x64, .f32⟩ : BufTy).Contents (Elt Ideal)) (x1 x2 : (⟨S1200000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x32, .f32⟩ : BufTy).Contents (Elt Ideal)) (x8 : (⟨S32, .f32⟩ : BufTy).Contents (Elt Ideal)) :
    val_main_v49 (F := Ideal) x0 x1 x2 x3 x4 x5 x6 x7 x8
      = Sage.combine (val_main_v24 (F := Ideal) x0 x1 x2 x3 x4 x5) (val_main_v43 (F := Ideal) x0 x1 x2 x3 x4 x5) x6 x7 (fun q => x8 (ix1 q)) := by
  funext i
  obtain ⟨r, q, rfl⟩ : ∃ (r : Fin 100000) (q : Fin 32), i = ix2 r q := ⟨i 0, i 1, eq_ix2 i⟩
  rw [Sage.combine_ix2, val_main_v49_apply, val_main_v46_apply, val_main_v44_apply, val_main_v45_apply, val_main_v48_apply,
    val_main_v47_apply]
  have e1 : ∀ k : Fin 64, lidx_main_v44 (ix2 r q) k = ix2 r k := fun k => funext fun a => Fin.ext (by
    match a with | ⟨0, _⟩ => rfl | ⟨1, _⟩ => rfl)
  have e2 : ∀ k : Fin 64, ridx_main_v44 (ix2 r q) k = ix2 k q := fun k => funext fun a => Fin.ext (by
    match a with | ⟨0, _⟩ => rfl | ⟨1, _⟩ => rfl)
  have e3 : ∀ k : Fin 64, lidx_main_v45 (ix2 r q) k = ix2 r k := fun k => funext fun a => Fin.ext (by
    match a with | ⟨0, _⟩ => rfl | ⟨1, _⟩ => rfl)
  have e4 : ∀ k : Fin 64, ridx_main_v45 (ix2 r q) k = ix2 k q := fun k => funext fun a => Fin.ext (by
    match a with | ⟨0, _⟩ => rfl | ⟨1, _⟩ => rfl)
  have e5 : idx_main_v47 (idx_main_v48 (ix2 r q)) = ix1 q := funext fun a => Fin.ext (by
    match a with | ⟨0, _⟩ => rfl)
  simp only [e1, e2, e3, e4, e5]
  rfl

/-- The reference's result as the two-layer network of its nine arguments. -/
abbrev refNet (x0 : (⟨S100000x64, .f32⟩ : BufTy).Contents (Elt Ideal)) (x1 x2 : (⟨S1200000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x32, .f32⟩ : BufTy).Contents (Elt Ideal)) (x8 : (⟨S32, .f32⟩ : BufTy).Contents (Elt Ideal)) :
    (⟨S100000x32, .f32⟩ : BufTy).Contents (Elt Ideal) :=
  Sage.net (agg x1 x2) x0 x3 x4 (fun q => x5 (ix1 q)) x6 x7 (fun q => x8 (ix1 q))

theorem result_eq_net (x0 : (⟨S100000x64, .f32⟩ : BufTy).Contents (Elt Ideal)) (x1 x2 : (⟨S1200000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x32, .f32⟩ : BufTy).Contents (Elt Ideal)) (x8 : (⟨S32, .f32⟩ : BufTy).Contents (Elt Ideal)) :
    val_main_v49 (F := Ideal) x0 x1 x2 x3 x4 x5 x6 x7 x8 = refNet x0 x1 x2 x3 x4 x5 x6 x7 x8 := by
  rw [layer2_eq, agg2_eq, layer1_eq]
  rfl

end Cert.ReferenceIdeal.RefSide

end
-- ==== Proof.KValue.lean ====
/-
  The kernel program's result as a function of its arguments. The host computes the neighbour mean of the input
  features, the first launch leaves layer 1's output (`Blocks.region0_out`), the host computes that output's neighbour mean
  with the same operations, and the second launch leaves layer 2's output (`Blocks.region1_out`): the two-layer network
  `Sage.net`, with the aggregation the very function the reference applies.
-/
import proofs.«164398_j61529701482749_1_alg».proof.Proof.Gen.KernelIdeal.Frame
import proofs.«164398_j61529701482749_1_alg».proof.Proof.KBlocks
import proofs.«164398_j61529701482749_1_alg».proof.Proof.RefSide
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The neighbour mean over the edges (x1, x2) of a feature array: one function for both programs (the reference's
    host operations; the kernel program's are the same operations, as the lemmas below check). -/
abbrev agg (x1 x2 : (⟨S1200000, .i32⟩ : BufTy).Contents (Elt Ideal)) (h : (⟨S100000x64, .f32⟩ : BufTy).Contents (Elt Ideal)) :
    (⟨S100000x64, .f32⟩ : BufTy).Contents (Elt Ideal) :=
  Cert.ReferenceIdeal.RefSide.agg x1 x2 h

/-! ## A launch's output from what it finds, with the found arrays named -/

section Named
variable (V : (c : Dev nD) → (b : Ref sig .tc) → Buf (Elt Ideal) ((c : Thread nD τ).loc b))

theorem out0_of (c : Dev nD) (H HN : Vec Ideal S100000x64 .f32) (WS WN : Vec Ideal S64x64 .f32) (b : Fin 64 → EReal)
    (e0 : V c main_arg0 = H) (e1 : V c main_v18 = HN) (e2 : V c main_arg3 = WS) (e3 : V c main_arg4 = WN)
    (e4 : ∀ q : Fin 64, V c main_v19 (ix2 (0 : Fin 1) q) = b q) :
    Blocks.out0 V c = Sage.combine H HN WS WN b := by
  unfold Blocks.out0
  rw [e0, e1, e2, e3]
  exact congrArg (Sage.combine H HN WS WN) (funext e4)

theorem out1_of (c : Dev nD) (H HN : Vec Ideal S100000x64 .f32) (WS WN : Vec Ideal S64x32 .f32) (b : Fin 32 → EReal)
    (e0 : V c main_v20 = H) (e1 : V c main_v39 = HN) (e2 : V c main_arg6 = WS) (e3 : V c main_arg7 = WN)
    (e4 : ∀ q : Fin 32, V c main_v40 (ix2 (0 : Fin 1) q) = b q) :
    Blocks.out1 V c = Sage.combine H HN WS WN b := by
  unfold Blocks.out1
  rw [e0, e1, e2, e3]
  exact congrArg (Sage.combine H HN WS WN) (funext e4)

end Named

variable (m : (ℓ : Loc nD τ sig) → Buf (Elt Ideal) ℓ) (ρ : Dev nD → PrngReg)

/-! ## What layer 1's launch finds -/

theorem V1_arg0 (c : Dev nD) : (V1 m ρ c main_arg0 : Vec Ideal S100000x64 .f32) = m ((c : Thread nD τ).loc main_arg0) := by
  show StableHlo.after hostOps0 (W0 m ρ c) (Proc.devRef .tc main_arg0) = _
  after_results_simp
theorem V1_arg3 (c : Dev nD) : (V1 m ρ c main_arg3 : Vec Ideal S64x64 .f32) = m ((c : Thread nD τ).loc main_arg3) := by
  show StableHlo.after hostOps0 (W0 m ρ c) (Proc.devRef .tc main_arg3) = _
  after_results_simp
theorem V1_arg4 (c : Dev nD) : (V1 m ρ c main_arg4 : Vec Ideal S64x64 .f32) = m ((c : Thread nD τ).loc main_arg4) := by
  show StableHlo.after hostOps0 (W0 m ρ c) (Proc.devRef .tc main_arg4) = _
  after_results_simp

/-- The host's first stretch leaves in `main_v18` the neighbour mean of the input features. -/
theorem V1_v18 (c : Dev nD) : (V1 m ρ c main_v18 : Vec Ideal S100000x64 .f32)
    = agg (m ((c : Thread nD τ).loc main_arg1)) (m ((c : Thread nD τ).loc main_arg2)) (m ((c : Thread nD τ).loc main_arg0)) := by
  show StableHlo.after hostOps0 (W0 m ρ c) (Proc.devRef .tc main_v18) = _
  after_results_simp
  rfl

/-- and in `main_v19` the bias as one row. -/
theorem V1_v19 (c : Dev nD) (q : Fin 64) :
    (V1 m ρ c main_v19 : Vec Ideal S1x64 .f32) (ix2 (0 : Fin 1) q) = m ((c : Thread nD τ).loc main_arg5) (ix1 q) := by
  show StableHlo.after hostOps0 (W0 m ρ c) (Proc.devRef .tc main_v19) (ix2 (0 : Fin 1) q) = _
  after_results_simp
  exact shapeCast_a_1a_apply _ _ (0 : Fin 1) q

/-- Layer 1's output: what the first launch leaves in `main_v20`. -/
abbrev h1 (c : Dev nD) : Vec Ideal S100000x64 .f32 :=
  Sage.combine (m ((c : Thread nD τ).loc main_arg0))
    (agg (m ((c : Thread nD τ).loc main_arg1)) (m ((c : Thread nD τ).loc main_arg2)) (m ((c : Thread nD τ).loc main_arg0)))
    (m ((c : Thread nD τ).loc main_arg3)) (m ((c : Thread nD τ).loc main_arg4)) (fun q => m ((c : Thread nD τ).loc main_arg5) (ix1 q))

theorem W2_v20 (c : Dev nD) : (W2 m ρ c (Proc.devRef .tc main_v20) : Vec Ideal S100000x64 .f32) = h1 m c :=
  (W2_arr m ρ c 5).trans ((Blocks.region0_out (V1 m ρ) c).trans
    (out0_of (V1 m ρ) c _ _ _ _ _ (V1_arg0 m ρ c) (V1_v18 m ρ c) (V1_arg3 m ρ c) (V1_arg4 m ρ c) (V1_v19 m ρ c)))

/-! ## What layer 2's launch finds -/

/-- The arguments the second stretch and the second launch read are still as launched. -/
theorem W2_arg1 (c : Dev nD) : (W2 m ρ c (Proc.devRef .tc main_arg1) : IVec S1200000 32) = m ((c : Thread nD τ).loc main_arg1) := by
  refine (W2_of_ne m ρ c main_arg1 (by decide)).trans ?_
  show StableHlo.after hostOps0 (W0 m ρ c) (Proc.devRef .tc main_arg1) = _
  after_results_simp
theorem W2_arg2 (c : Dev nD) : (W2 m ρ c (Proc.devRef .tc main_arg2) : IVec S1200000 32) = m ((c : Thread nD τ).loc main_arg2) := by
  refine (W2_of_ne m ρ c main_arg2 (by decide)).trans ?_
  show StableHlo.after hostOps0 (W0 m ρ c) (Proc.devRef .tc main_arg2) = _
  after_results_simp
theorem W2_arg6 (c : Dev nD) : (W2 m ρ c (Proc.devRef .tc main_arg6) : Vec Ideal S64x32 .f32) = m ((c : Thread nD τ).loc main_arg6) := by
  refine (W2_of_ne m ρ c main_arg6 (by decide)).trans ?_
  show StableHlo.after hostOps0 (W0 m ρ c) (Proc.devRef .tc main_arg6) = _
  after_results_simp
theorem W2_arg7 (c : Dev nD) : (W2 m ρ c (Proc.devRef .tc main_arg7) : Vec Ideal S64x32 .f32) = m ((c : Thread nD τ).loc main_arg7) := by
  refine (W2_of_ne m ρ c main_arg7 (by decide)).trans ?_
  show StableHlo.after hostOps0 (W0 m ρ c) (Proc.devRef .tc main_arg7) = _
  after_results_simp
theorem W2_arg8 (c : Dev nD) : (W2 m ρ c (Proc.devRef .tc main_arg8) : Vec Ideal S32 .f32) = m ((c : Thread nD τ).loc main_arg8) := by
  refine (W2_of_ne m ρ c main_arg8 (by decide)).trans ?_
  show StableHlo.after hostOps0 (W0 m ρ c) (Proc.devRef .tc main_arg8) = _
  after_results_simp

theorem V3_v20 (c : Dev nD) : (V3 m ρ c main_v20 : Vec Ideal S100000x64 .f32) = h1 m c := by
  refine Eq.trans ?_ (W2_v20 m ρ c)
  show StableHlo.after hostOps1 (W2 m ρ c) (Proc.devRef .tc main_v20) = _
  after_results_simp
theorem V3_arg6 (c : Dev nD) : (V3 m ρ c main_arg6 : Vec Ideal S64x32 .f32) = m ((c : Thread nD τ).loc main_arg6) := by
  refine Eq.trans ?_ (W2_arg6 m ρ c)
  show StableHlo.after hostOps1 (W2 m ρ c) (Proc.devRef .tc main_arg6) = _
  after_results_simp
theorem V3_arg7 (c : Dev nD) : (V3 m ρ c main_arg7 : Vec Ideal S64x32 .f32) = m ((c : Thread nD τ).loc main_arg7) := by
  refine Eq.trans ?_ (W2_arg7 m ρ c)
  show StableHlo.after hostOps1 (W2 m ρ c) (Proc.devRef .tc main_arg7) = _
  after_results_simp

/-- The host's second stretch leaves in `main_v39` the neighbour mean of layer 1's output: the same operations as the
    first stretch's, on `main_v20`. -/
theorem V3_v39 (c : Dev nD) : (V3 m ρ c main_v39 : Vec Ideal S100000x64 .f32)
    = agg (m ((c : Thread nD τ).loc main_arg1)) (m ((c : Thread nD τ).loc main_arg2)) (h1 m c) := by
  have e : (V3 m ρ c main_v39 : Vec Ideal S100000x64 .f32)
      = agg (W2 m ρ c (Proc.devRef .tc main_arg1)) (W2 m ρ c (Proc.devRef .tc main_arg2)) (W2 m ρ c (Proc.devRef .tc main_v20)) := by
    show StableHlo.after hostOps1 (W2 m ρ c) (Proc.devRef .tc main_v39) = _
    after_results_simp
    rfl
  rw [e, W2_arg1, W2_arg2, W2_v20]

/-- and in `main_v40` layer 2's bias as one row. -/
theorem V3_v40 (c : Dev nD) (q : Fin 32) :
    (V3 m ρ c main_v40 : Vec Ideal S1x32 .f32) (ix2 (0 : Fin 1) q) = m ((c : Thread nD τ).loc main_arg8) (ix1 q) := by
  have e : (V3 m ρ c main_v40 : Vec Ideal S1x32 .f32) (ix2 (0 : Fin 1) q) = W2 m ρ c (Proc.devRef .tc main_arg8) (ix1 q) := by
    show StableHlo.after hostOps1 (W2 m ρ c) (Proc.devRef .tc main_v40) (ix2 (0 : Fin 1) q) = _
    after_results_simp
    exact shapeCast_a_1a_apply _ _ (0 : Fin 1) q
  rw [e, W2_arg8]

/-! ## The result -/

/-- THE RESULT ARRAY `main_v41` at the end of the run is the two-layer network of the nine arguments. -/
theorem result_eq (c : Dev nD) :
    (W4 m ρ c (Proc.devRef .tc main_v41) : Vec Ideal S100000x32 .f32)
      = Sage.net (agg (m ((c : Thread nD τ).loc main_arg1)) (m ((c : Thread nD τ).loc main_arg2)))
          (m ((c : Thread nD τ).loc main_arg0)) (m ((c : Thread nD τ).loc main_arg3)) (m ((c : Thread nD τ).loc main_arg4))
          (fun q => m ((c : Thread nD τ).loc main_arg5) (ix1 q))
          (m ((c : Thread nD τ).loc main_arg6)) (m ((c : Thread nD τ).loc main_arg7))
          (fun q => m ((c : Thread nD τ).loc main_arg8) (ix1 q)) :=
  (W4_arr m ρ c 5).trans ((Blocks.region1_out (V3 m ρ) c).trans
    (out1_of (V3 m ρ) c _ _ _ _ _ (V3_v20 m ρ c) (V3_v39 m ρ c) (V3_arg6 m ρ c) (V3_arg7 m ρ c) (V3_v40 m ρ c)))

end Cert.KernelIdeal.KValue

end
-- ==== Proof.lean ====
/-
  Two GraphSAGE layers with a mean aggregator on 100000 nodes and 1200000 edges: the kernel program against its jnp
  reference, over the extended reals.

  Both programs aggregate on the host with the same operations (gather the source rows, scatter-add them and a column
  of ones by destination, clamp the degree at 1, divide), so the neighbour mean is ONE function `agg` of a feature array.
  Each layer then forms `h · W_self + agg h · W_neigh + b`. The reference does it with two whole-array products; the kernel
  program launches, per layer, ten grid steps of 10000 rows each, whose body casts its blocks to bf16 (the identity at
  the exact reals), multiplies on the matrix unit into a zero accumulator (a plain sum there), adds the two products
  and then the bias row. Entry (r, q) of either is the same two inner products over the 64 input features plus bias q
  (`Sage.combineAt`); a row of the result depends only on the same row of the two feature arrays, so the ten row blocks are
  the restrictions of the whole-array function and tile it. No law beyond reading both sides entry by entry is used, and
  none that needs finiteness: the precondition is never opened.

  KValue.lean: the kernel program's result array is `Sage.net agg` of the arguments (KBlocks.lean: each launch's output
  array; KPayload.lean: one step's stored block; KRun.lean: the run with the result array named). RefSide.lean: the
  reference's result is the same `Sage.net agg`. Here: the three frames, the empty idealization ledger, and the two runs
  side by side.
-/
import proofs.«164398_j61529701482749_1_alg».proof.Defs
import proofs.«164398_j61529701482749_1_alg».proof.Proof.Gen.Kernel
import proofs.«164398_j61529701482749_1_alg».proof.Proof.Gen.Kernel.Skeleton
import proofs.«164398_j61529701482749_1_alg».proof.Proof.Gen.Kernel.Launch
import proofs.«164398_j61529701482749_1_alg».proof.Proof.Gen.Kernel.Points
import proofs.«164398_j61529701482749_1_alg».proof.Proof.Gen.Kernel.Frame
import proofs.«164398_j61529701482749_1_alg».proof.Proof.Gen.KernelIdeal
import proofs.«164398_j61529701482749_1_alg».proof.Proof.Gen.KernelIdeal.Skeleton
import proofs.«164398_j61529701482749_1_alg».proof.Proof.Gen.KernelIdeal.Launch
import proofs.«164398_j61529701482749_1_alg».proof.Proof.Gen.KernelIdeal.Points
import proofs.«164398_j61529701482749_1_alg».proof.Proof.Gen.KernelIdeal.Frame
import proofs.«164398_j61529701482749_1_alg».proof.Proof.Gen.ReferenceIdeal
import proofs.«164398_j61529701482749_1_alg».proof.Proof.Gen.ReferenceIdeal.Run
import proofs.«164398_j61529701482749_1_alg».proof.Proof.Gen.ReferenceIdeal.Read
import proofs.«164398_j61529701482749_1_alg».proof.Proof.Gen.Pre_finite_inputs
import proofs.«164398_j61529701482749_1_alg».proof.Proof.KRun
import proofs.«164398_j61529701482749_1_alg».proof.Proof.KValue
import proofs.«164398_j61529701482749_1_alg».proof.Proof.RefSide
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ

/-- So does its reading at the exact reals. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments both programs end with the two-layer network of those arguments in
    their result array. -/
theorem algebraic : Cert.algebraic_KernelIdeal_ReferenceIdeal := by
  intro m ρ m' ρ' _ hagree
  refine ⟨fun c => Cert.KernelIdeal.Gen.W4 m ρ c (Proc.devRef .tc Cert.KernelIdeal.main_v41),
    Cert.KernelIdeal.NamedRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v49_eq, Cert.ReferenceIdeal.RefSide.result_eq_net, a0, a1, a2, a3, a4, a5, a6, a7, a8]
  exact (Cert.KernelIdeal.KValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
